-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256 .f32) (main_arg9 : FVec F S256x128 .f32) (main_arg10 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S128x256 .f32) (main_arg8 : FVec F S256 .f32) (main_arg9 : FVec F S256x128 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S600000x128 .f32) (main_arg2 : IVec S2x600000 32) (main_arg3 : FVec F S128x256 .f32) (main_arg4 : FVec F S256 .f32) (main_arg5 : FVec F S256x128 .f32) (main_arg6 : FVec F S128 .f32) (main_arg7 : FVec F S128x256 .f32) (main_arg8 : FVec F S256 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S600000x128 : Shape := ⟨2, ![600000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S3000x128 : Shape := ⟨2, ![3000, 128]⟩
abbrev S3000x256 : Shape := ⟨2, ![3000, 256]⟩
abbrev S1x256 : Shape := ⟨2, ![1, 256]⟩
abbrev S1x128 : Shape := ⟨2, ![1, 128]⟩
abbrev S3000 : Shape := ⟨1, ![3000]⟩
abbrev S3000x1 : Shape := ⟨2, ![3000, 1]⟩

abbrev nBuf : Space → Nat
  | .hbm => 35
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x128, .f32⟩
  | .hbm, ⟨34, _⟩ => ⟨S600000x128, .f32⟩
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S128x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S128x256, .f32⟩
  | .local _ .vmem, ⟨9, _⟩ => ⟨S256, .f32⟩
  | .local _ .vmem, ⟨10, _⟩ => ⟨S256x128, .f32⟩
  | .local _ .vmem, ⟨11, _⟩ => ⟨S128, .f32⟩
  | .local _ .vmem, ⟨12, _⟩ => ⟨S3000x128, .f32⟩
  | .local _ .vmem, ⟨13, _⟩ => ⟨S3000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S3000x256 : S1x256.Broadcasts S3000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S3000x128 : S1x128.Broadcasts S3000x128
  reduces_S3000x128_S3000 : S3000x128.Reduces [1] S3000
  shapeCasts_S3000_S3000x1 : S3000.ShapeCasts S3000x1
  broadcasts_S3000x1_S3000x128 : S3000x1.Broadcasts S3000x128
  gather_S50000x128_S600000x1_S600000x128_1_0_n_n_0_1_1128_wf : GatherDims.WF S50000x128 S600000x1 S600000x128 [1] [0] [] [0] [] 1 ![1, 128]
  dot_S3000x128_S128x256_S3000x256_1_0_0_1_n_n_wf : DotDims.WF S3000x128 S128x256 S3000x256 [1] [0] [0] [1] [] []
  dot_S3000x256_S256x128_S3000x128_1_0_0_1_n_n_wf : DotDims.WF S3000x256 S256x128 S3000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S600000x128.size a
  hwx0_0 : ∀ i : grid0.Coords, EltTy.bits .f32 = 32 ∨ (Rect.block (s := S600000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S600000x128.size a
  hwx0_1 : ∀ i : grid0.Coords, EltTy.bits .f32 = 32 ∨ (Rect.block (s := S600000x128) S3000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3000x128.size a ≤ S600000x128.size a
  hwx0_10 : ∀ i : grid0.Coords, EltTy.bits .f32 = 32 ∨ (Rect.block (s := S600000x128) S3000x128.size (cc0_transform_10 i) (hinb0_10 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S3000x128_S128x256_S3000x256_1_0_0_1_n_n : DotDims S3000x128 S128x256 S3000x256 where
  lhsContracting := [1]
  rhsContracting := [0]
  lhsNonContracting := [0]
  rhsNonContracting := [1]
  lhsBatch := []
  rhsBatch := []
  wf := dot_S3000x128_S128x256_S3000x256_1_0_0_1_n_n_wf
def dot_S3000x256_S256x128_S3000x128_1_0_0_1_n_n : DotDims S3000x256 S256x128 S3000x128 where
  lhsContracting := [1]
  rhsContracting := [0]
  lhsNonContracting := [0]
  rhsNonContracting := [1]
  lhsBatch := []
  rhsBatch := []
  wf := dot_S3000x256_S256x128_S3000x128_1_0_0_1_n_n_wf

abbrev win0_0 : Pipeline.Window sig grid0 :=
  Pipeline.Window.ofSpec (Memref.whole main_v18) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S3000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S2x600000 : Shape := ⟨2, ![2, 600000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x256 : Shape := ⟨2, ![600000, 256]⟩
abbrev S1x256 : Shape := ⟨2, ![1, 256]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x128, .f32⟩
  | .hbm, ⟨34, _⟩ => ⟨S600000x256, .f32⟩
  | .hbm, ⟨35, _⟩ => ⟨S1x256, .f32⟩
  | .hbm, ⟨36, _⟩ => ⟨S600000x256, .f32⟩
  | .hbm, ⟨37, _⟩ => ⟨S600000x256, .f32⟩
  | .hbm, ⟨38, _⟩ => ⟨S_, .f32⟩
  | .hbm, ⟨39, _⟩ => ⟨S600000x256, .f32⟩
  | .hbm, ⟨40, _⟩ => ⟨S600000x256, .f32⟩
  | .hbm, ⟨41, _⟩ => ⟨S600000x128, .f32⟩
  | .hbm, ⟨42, _⟩ => ⟨S1x128, .f32⟩
  | .hbm, ⟨43, _⟩ => ⟨S600000x128, .f32⟩
  | .hbm, ⟨44, _⟩ => ⟨S600000x128, .f32⟩
  | .hbm, ⟨45, _⟩ => ⟨S600000x256, .f32⟩
  | .hbm, ⟨46, _⟩ => ⟨S1x256, .f32⟩
  | .hbm, ⟨47, _⟩ => ⟨S600000x256, .f32⟩
  | .hbm, ⟨48, _⟩ => ⟨S600000x256, .f32⟩
  | .hbm, ⟨49, _⟩ => ⟨S_, .f32⟩
  | .hbm, ⟨50, _⟩ => ⟨S600000x256, .f32⟩
  | .hbm, ⟨51, _⟩ => ⟨S600000x256, .f32⟩
  | .hbm, ⟨52, _⟩ => ⟨S600000x128, .f32⟩
  | .hbm, ⟨53, _⟩ => ⟨S1x128, .f32⟩
  | .hbm, ⟨54, _⟩ => ⟨S600000x128, .f32⟩
  | .hbm, ⟨55, _⟩ => ⟨S600000x128, .f32⟩
  | .hbm, ⟨56, _⟩ => ⟨S600000x128, .f32⟩
  | .hbm, ⟨57, _⟩ => ⟨S_, .f32⟩
  | .hbm, ⟨58, _⟩ => ⟨S600000, .f32⟩
  | .hbm, ⟨59, _⟩ => ⟨S600000x1, .f32⟩
  | .hbm, ⟨60, _⟩ => ⟨S_, .f32⟩
  | .hbm, ⟨61, _⟩ => ⟨S600000x1, .f32⟩
  | .hbm, ⟨62, _⟩ => ⟨S600000x1, .f32⟩
  | .hbm, ⟨63, _⟩ => ⟨S600000x128, .f32⟩
  | .hbm, ⟨64, _⟩ => ⟨S600000x128, .f32⟩
  | .hbm, ⟨65, _⟩ => ⟨S600000x128, .f32⟩
  | .hbm, ⟨66, _⟩ => ⟨S_, .f32⟩
  | .hbm, ⟨67, _⟩ => ⟨S600000, .f32⟩
  | .hbm, ⟨68, _⟩ => ⟨S600000x1, .f32⟩
  | .hbm, ⟨69, _⟩ => ⟨S_, .f32⟩
  | .hbm, ⟨70, _⟩ => ⟨S600000x1, .f32⟩
  | .hbm, ⟨71, _⟩ => ⟨S600000x1, .f32⟩
  | .hbm, ⟨72, _⟩ => ⟨S600000x128, .f32⟩
  | .hbm, ⟨73, _⟩ => ⟨S600000x128, .f32⟩
  | .hbm, ⟨74, _⟩ => ⟨S_, .f32⟩
  | .hbm, ⟨75, _⟩ => ⟨S600000x1, .f32⟩
  | .hbm, ⟨76, _⟩ => ⟨S600000x1, .f32⟩
  | .hbm, ⟨77, _⟩ => ⟨S600000x1, .f32⟩
  | .hbm, ⟨78, _⟩ => ⟨S600000x128, .f32⟩
  | .hbm, ⟨79, _⟩ => ⟨S600000x128, .f32⟩
  | .hbm, ⟨80, _⟩ => ⟨S_, .f32⟩
  | .hbm, ⟨81, _⟩ => ⟨S600000x128, .f32⟩
  | .hbm, ⟨82, _⟩ => ⟨S600000x128, .f32⟩
  | .hbm, ⟨83, _⟩ => ⟨S600000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S256_S1x256_1 : S256.BroadcastsInDim S1x256 (![1] : Fin 1 → Fin S1x256.rank)
  bcast_S1x256_S600000x256_0_1 : S1x256.BroadcastsInDim S600000x256 (![0, 1] : Fin 2 → Fin S600000x256.rank)
  bcast_S_S600000x256 : S_.BroadcastsInDim S600000x256 (![] : Fin 0 → Fin S600000x256.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  reducesTo_S600000x128_S600000_d1 : S600000x128.ReducesTo [1] S600000
  h_S_ : 0 < S_.numel
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  bcast_S_S600000x128 : S_.BroadcastsInDim S600000x128 (![] : Fin 0 → Fin S600000x128.rank)
  gather_S50000x128_S600000x1_S600000x128_1_0_n_n_0_1_1128_wf : GatherDims.WF S50000x128 S600000x1 S600000x128 [1] [0] [] [0] [] 1 ![1, 128]
  dot_S600000x128_S128x256_S600000x256_1_0_0_1_n_n_wf : DotDims.WF S600000x128 S128x256 S600000x256 [1] [0] [0] [1] [] []
  dot_S600000x256_S256x128_S600000x128_1_0_0_1_n_n_wf : DotDims.WF S600000x256 S256x128 S600000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x256_S600000x256_1_0_0_1_n_n : DotDims S600000x128 S128x256 S600000x256 where
  lhsContracting := [1]
  rhsContracting := [0]
  lhsNonContracting := [0]
  rhsNonContracting := [1]
  lhsBatch := []
  rhsBatch := []
  wf := dot_S600000x128_S128x256_S600000x256_1_0_0_1_n_n_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf

class Facts : Prop extends Facts₀ where

variable [Facts]
-- ==== Proof.EdgeRow.lean ====
/-
  The edge update of one edge, on the extended reals.

  An edge carries two rows of 128 numbers: `s`, the sum of the features of its two end nodes, and `ef`, its own
  features. Each row goes through its own two-layer perceptron (128 → 256 → 128, a rectifier after the first layer);
  the two results are added; the sum `h` is normalised over its 128 entries (mean `μ`, biased variance `σ²`,
  `(h - μ) · (σ² + ε)^(-1/2)`), rectified, and added back to `ef`.

  Everything here is a function of ROWS indexed by `Fin 128` / `Fin 256`; the three literals (the rectifier's zero, the
  row width 128 and ε) are kept as the binary words both programs print, so no word is ever evaluated.
-/
import Idealize.ShloMosaic.PureOps.Ideal
import Idealize.ShloMosaic.Lib.ValueIdx

noncomputable section

namespace Cert.EdgeRow

open Idealize.ShloMosaic Idealize.ShloMosaic.ValueIdx

/-- The zero a rectifier compares against. -/
abbrev zeroLit : EReal := Ideal.ofBits .f32 0x00000000#32
/-- The row width, 128, as both programs divide by it. -/
abbrev widthLit : EReal := Ideal.ofBits .f32 0x43000000#32
/-- The ε under the inverse square root. -/
abbrev epsLit : EReal := Ideal.ofBits .f32 0x3727C5AC#32

/-- Hidden unit `k` of a perceptron on the row `x`: `max (x · W1[:, k] + b1[k]) 0`. -/
def hidden (x : Fin 128 → EReal) (W1 : Fin 128 → Fin 256 → EReal) (b1 : Fin 256 → EReal) (k : Fin 256) : EReal :=
  max ((∑ i : Fin 128, x i * W1 i k) + b1 k) zeroLit

/-- The second layer WITHOUT its bias: `hidden · W2[:, j]`. -/
def secondLayer (x : Fin 128 → EReal) (W1 : Fin 128 → Fin 256 → EReal) (b1 : Fin 256 → EReal)
    (W2 : Fin 256 → Fin 128 → EReal) (j : Fin 128) : EReal :=
  ∑ k : Fin 256, hidden x W1 b1 k * W2 k j

/-- The perceptron's output `j`: `hidden · W2[:, j] + b2[j]`. -/
def perceptron (x : Fin 128 → EReal) (W1 : Fin 128 → Fin 256 → EReal) (b1 : Fin 256 → EReal)
    (W2 : Fin 256 → Fin 128 → EReal) (b2 : Fin 128 → EReal) (j : Fin 128) : EReal :=
  secondLayer x W1 b1 W2 j + b2 j

/-- The mean of a row: its sum divided by 128. -/
def rowMean (h : Fin 128 → EReal) : EReal := Ideal.div (∑ k : Fin 128, h k) widthLit

/-- The biased variance of a row: the mean of the squared deviations from `rowMean`. -/
def rowVar (h : Fin 128 → EReal) : EReal :=
  Ideal.div (∑ k : Fin 128, (h k - rowMean h) * (h k - rowMean h)) widthLit

/-- Entry `j` of the normalised and rectified row. -/
def normRelu (h : Fin 128 → EReal) (j : Fin 128) : EReal :=
  max ((h j - rowMean h) * Ideal.rsqrt (rowVar h + epsLit)) zeroLit

/-- The two perceptrons' sum, before normalisation: entry `a` of `h`. -/
def mixed (s ef : Fin 128 → EReal)
    (W1a : Fin 128 → Fin 256 → EReal) (b1a : Fin 256 → EReal) (W2a : Fin 256 → Fin 128 → EReal) (b2a : Fin 128 → EReal)
    (W1b : Fin 128 → Fin 256 → EReal) (b1b : Fin 256 → EReal) (W2b : Fin 256 → Fin 128 → EReal) (b2b : Fin 128 → EReal)
    (a : Fin 128) : EReal :=
  perceptron s W1a b1a W2a b2a a + perceptron ef W1b b1b W2b b2b a

/-- Entry `j` of the updated edge row: `ef[j] + relu (norm (mlp_a s + mlp_b ef))[j]`. -/
def edgeRow (s ef : Fin 128 → EReal)
    (W1a : Fin 128 → Fin 256 → EReal) (b1a : Fin 256 → EReal) (W2a : Fin 256 → Fin 128 → EReal) (b2a : Fin 128 → EReal)
    (W1b : Fin 128 → Fin 256 → EReal) (b1b : Fin 256 → EReal) (W2b : Fin 256 → Fin 128 → EReal) (b2b : Fin 128 → EReal)
    (j : Fin 128) : EReal :=
  ef j + normRelu (mixed s ef W1a b1a W2a b2a W1b b1b W2b b2b) j

/-- The update applied to every row of an `[n, 128]` array of node-pair sums `s` and edge features `ef`, the weights
    given as arrays: entry `(e, j)` is `edgeRow` of row `e` of `s` and of `ef`. The whole result array is this at
    `n = 600000`; one grid point's block is this at `n = 3000`. -/
def rowsOut (n : Nat) (s ef : (⟨2, ![n, 128]⟩ : Shape).Idx → EReal)
    (W1a : (⟨2, ![128, 256]⟩ : Shape).Idx → EReal) (b1a : (⟨1, ![256]⟩ : Shape).Idx → EReal)
    (W2a : (⟨2, ![256, 128]⟩ : Shape).Idx → EReal) (b2a : (⟨1, ![128]⟩ : Shape).Idx → EReal)
    (W1b : (⟨2, ![128, 256]⟩ : Shape).Idx → EReal) (b1b : (⟨1, ![256]⟩ : Shape).Idx → EReal)
    (W2b : (⟨2, ![256, 128]⟩ : Shape).Idx → EReal) (b2b : (⟨1, ![128]⟩ : Shape).Idx → EReal) :
    (⟨2, ![n, 128]⟩ : Shape).Idx → EReal :=
  fun i => edgeRow (fun a => s (ix2 (n0 := n) (n1 := 128) (i 0) a)) (fun a => ef (ix2 (n0 := n) (n1 := 128) (i 0) a))
    (fun a b => W1a (ix2 a b)) (fun b => b1a (ix1 b)) (fun a b => W2a (ix2 a b)) (fun b => b2a (ix1 b))
    (fun a b => W1b (ix2 a b)) (fun b => b1b (ix1 b)) (fun a b => W2b (ix2 a b)) (fun b => b2b (ix1 b)) (i 1)

/-- `rowsOut` at explicit coordinates. -/
theorem rowsOut_ix2 (n : Nat) (s ef : (⟨2, ![n, 128]⟩ : Shape).Idx → EReal)
    (W1a : (⟨2, ![128, 256]⟩ : Shape).Idx → EReal) (b1a : (⟨1, ![256]⟩ : Shape).Idx → EReal)
    (W2a : (⟨2, ![256, 128]⟩ : Shape).Idx → EReal) (b2a : (⟨1, ![128]⟩ : Shape).Idx → EReal)
    (W1b : (⟨2, ![128, 256]⟩ : Shape).Idx → EReal) (b1b : (⟨1, ![256]⟩ : Shape).Idx → EReal)
    (W2b : (⟨2, ![256, 128]⟩ : Shape).Idx → EReal) (b2b : (⟨1, ![128]⟩ : Shape).Idx → EReal)
    (e : Fin n) (j : Fin 128) :
    rowsOut n s ef W1a b1a W2a b2a W1b b1b W2b b2b (ix2 e j)
      = edgeRow (fun a => s (ix2 e a)) (fun a => ef (ix2 e a))
          (fun a b => W1a (ix2 a b)) (fun b => b1a (ix1 b)) (fun a b => W2a (ix2 a b)) (fun b => b2a (ix1 b))
          (fun a b => W1b (ix2 a b)) (fun b => b1b (ix1 b)) (fun a b => W2b (ix2 a b)) (fun b => b2b (ix1 b)) j := rfl

end Cert.EdgeRow

end
-- ==== Proof.RowLayout.lean ====
/-
  Layout steps of a per-row reduction kept as a column, read at explicit coordinates.

  `jnp.mean(h, axis=-1, keepdims=True)` sums each row of an `[a, 128]` block, re-lays the `[a]` result as an `[a, 1]`
  column and later broadcasts that column back over the 128 entries of its row. Read at `(r, c)`: the column holds the
  reduced vector's entry `r`, the broadcast holds the column's entry `(r, 0)`, and the row sum is `∑ k, src (r, k)`.
-/
import Idealize.ShloMosaic.Lib.ValueLayout
import Idealize.ShloMosaic.Lib.Pipeline.Value
import Idealize.ShloMosaic.PureOps.Ideal.Laws

noncomputable section

namespace Cert.RowLayout

open Idealize.ShloMosaic Idealize.ShloMosaic.ValueIdx

variable {α : Type}

/-- An `[a]` array cast to `[a, 1]` reads, at `(r, u)`, the operand at `r`, whatever the unit coordinate `u`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[b]` vector re-laid as one row `[1, b]` and broadcast over `a` rows reads, at `(r, c)`, the vector's entry `c`:
    how a bias is added to every row of a block. -/
theorem broadcastTo_row_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (r : Fin a) (c : Fin b) :
    broadcastTo ⟨2, ![a, b]⟩ (shapeCast ⟨2, ![1, b]⟩ x h₁) h₂ (ix2 r c) = x (ix1 c) :=
  (broadcastTo_1b_ab_apply _ h₂ r c).trans (shapeCast_a_1a_apply x h₁ 0 c)

/-- At the ideal values a lane sum of a `[3000, 128]` block into its 3000 rows is, at row `r`, `∑ k, src (r, k)`. -/
theorem rowSum_apply (src : FVec Ideal ⟨2, ![3000, 128]⟩ .f32) (h : Shape.Reduces ⟨2, ![3000, 128]⟩ [1] ⟨1, ![3000]⟩)
    (r : Fin 3000) :
    multiReduction .add [1] ⟨1, ![3000]⟩ src 0x00000000#32 h (.inl rfl) rfl (ix1 r) = ∑ k : Fin 128, src (ix2 r k) := by
  refine (Ideal.multiReduction_add_single src 0x00000000#32 h (.inl rfl) rfl (ix1 r)).trans ?_
  refine Finset.sum_congr rfl fun k _ => congrArg src (funext fun ax => Fin.ext ?_)
  match ax with
  | ⟨0, _⟩ => rfl
  | ⟨1, _⟩ => rfl

end Cert.RowLayout

end
-- ==== Proof.KernelBody.lean ====
/-
  What the kernel's body computes for one grid point, read at an entry `(r, j)` of its `[3000, 128]` output block, at the
  ideal values: entry `(r, j)` is `EdgeRow.edgeRow` of row `r` of the two input blocks and of the (whole) weight arrays.

  The steps: a product into a zero accumulator read at an entry is the plain sum over the contracted axis; a bias re-laid
  as one row and broadcast over the rows is the bias entry; a lane sum kept as a column and broadcast back over its row is
  the row's sum; the change of float format before each product is the identity.
-/
import proofs.«125870_j81484119539777_1_alg».proof.Proof.Gen.KernelIdeal.Skeleton
import proofs.«125870_j81484119539777_1_alg».proof.Proof.EdgeRow
import proofs.«125870_j81484119539777_1_alg».proof.Proof.RowLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.EdgeRow Cert.RowLayout

/-! ## The two products at an entry -/

theorem lhs_first_0 (i : S3000x256.Idx) (q : dot_S3000x128_S128x256_S3000x256_1_0_0_1_n_n.contr.Idx) :
    (dot_S3000x128_S128x256_S3000x256_1_0_0_1_n_n.lhsIdx i q 0).val = (i 0).val := by
  unfold DotDims.lhsIdx
  rw [dif_neg (show ¬(0 : Fin S3000x128.rank) ∈ dot_S3000x128_S128x256_S3000x256_1_0_0_1_n_n.lhsBatch by decide), dif_pos (show (0 : Fin S3000x128.rank) ∈ dot_S3000x128_S128x256_S3000x256_1_0_0_1_n_n.lhsNonContracting by decide)]
  rfl
theorem lhs_first_1 (i : S3000x256.Idx) (q : dot_S3000x128_S128x256_S3000x256_1_0_0_1_n_n.contr.Idx) :
    (dot_S3000x128_S128x256_S3000x256_1_0_0_1_n_n.lhsIdx i q 1).val = (q ⟨0, by decide⟩).val :=
  dot_S3000x128_S128x256_S3000x256_1_0_0_1_n_n.lhsIdx_val_of_single rfl i q
theorem rhs_first_0 (i : S3000x256.Idx) (q : dot_S3000x128_S128x256_S3000x256_1_0_0_1_n_n.contr.Idx) :
    (dot_S3000x128_S128x256_S3000x256_1_0_0_1_n_n.rhsIdx i q 0).val = (q ⟨0, by decide⟩).val :=
  dot_S3000x128_S128x256_S3000x256_1_0_0_1_n_n.rhsIdx_val_of_single rfl i q
theorem rhs_first_1 (i : S3000x256.Idx) (q : dot_S3000x128_S128x256_S3000x256_1_0_0_1_n_n.contr.Idx) :
    (dot_S3000x128_S128x256_S3000x256_1_0_0_1_n_n.rhsIdx i q 1).val = (i 1).val := by
  unfold DotDims.rhsIdx
  rw [dif_neg (show ¬(1 : Fin S128x256.rank) ∈ dot_S3000x128_S128x256_S3000x256_1_0_0_1_n_n.rhsBatch by decide), dif_pos (show (1 : Fin S128x256.rank) ∈ dot_S3000x128_S128x256_S3000x256_1_0_0_1_n_n.rhsNonContracting by decide)]
  rfl

/-- The first-layer product `[3000, 128] × [128, 256]` into a zero accumulator, at `(r, k)`: `∑ i, lhs (r, i) · rhs (i, k)`. -/
theorem firstProduct_apply {φ₁ φ₂ : FTy} (lhs : FVec Ideal S3000x128 φ₁) (rhs : FVec Ideal S128x256 φ₂) (r : Fin 3000) (k : Fin 256) :
    matmul dot_S3000x128_S128x256_S3000x256_1_0_0_1_n_n none lhs rhs (constant (F := Ideal) S3000x256 .f32 0x00000000#32) (ix2 r k)
      = ∑ i : Fin 128, lhs (ix2 r i) * rhs (ix2 i k) := by
  simp only [matmul]
  rw [Ideal.matmul_constant_zero_apply, ← Equiv.sum_comp (contrEquiv1 dot_S3000x128_S128x256_S3000x256_1_0_0_1_n_n 128 rfl rfl).symm]
  refine Finset.sum_congr rfl fun i _ => ?_
  have hk := contrEquiv1_symm_val dot_S3000x128_S128x256_S3000x256_1_0_0_1_n_n 128 rfl rfl i
  have el : dot_S3000x128_S128x256_S3000x256_1_0_0_1_n_n.lhsIdx (ix2 r k) ((contrEquiv1 dot_S3000x128_S128x256_S3000x256_1_0_0_1_n_n 128 rfl rfl).symm i) = ix2 r i := funext fun a => Fin.ext (by
    match a with
    | ⟨0, _⟩ => exact lhs_first_0 _ _
    | ⟨1, _⟩ => exact (lhs_first_1 _ _).trans hk)
  have er : dot_S3000x128_S128x256_S3000x256_1_0_0_1_n_n.rhsIdx (ix2 r k) ((contrEquiv1 dot_S3000x128_S128x256_S3000x256_1_0_0_1_n_n 128 rfl rfl).symm i) = ix2 i k := funext fun a => Fin.ext (by
    match a with
    | ⟨0, _⟩ => exact (rhs_first_0 _ _).trans hk
    | ⟨1, _⟩ => exact rhs_first_1 _ _)
  rw [el, er]

theorem lhs_second_0 (i : S3000x128.Idx) (q : dot_S3000x256_S256x128_S3000x128_1_0_0_1_n_n.contr.Idx) :
    (dot_S3000x256_S256x128_S3000x128_1_0_0_1_n_n.lhsIdx i q 0).val = (i 0).val := by
  unfold DotDims.lhsIdx
  rw [dif_neg (show ¬(0 : Fin S3000x256.rank) ∈ dot_S3000x256_S256x128_S3000x128_1_0_0_1_n_n.lhsBatch by decide), dif_pos (show (0 : Fin S3000x256.rank) ∈ dot_S3000x256_S256x128_S3000x128_1_0_0_1_n_n.lhsNonContracting by decide)]
  rfl
theorem lhs_second_1 (i : S3000x128.Idx) (q : dot_S3000x256_S256x128_S3000x128_1_0_0_1_n_n.contr.Idx) :
    (dot_S3000x256_S256x128_S3000x128_1_0_0_1_n_n.lhsIdx i q 1).val = (q ⟨0, by decide⟩).val :=
  dot_S3000x256_S256x128_S3000x128_1_0_0_1_n_n.lhsIdx_val_of_single rfl i q
theorem rhs_second_0 (i : S3000x128.Idx) (q : dot_S3000x256_S256x128_S3000x128_1_0_0_1_n_n.contr.Idx) :
    (dot_S3000x256_S256x128_S3000x128_1_0_0_1_n_n.rhsIdx i q 0).val = (q ⟨0, by decide⟩).val :=
  dot_S3000x256_S256x128_S3000x128_1_0_0_1_n_n.rhsIdx_val_of_single rfl i q
theorem rhs_second_1 (i : S3000x128.Idx) (q : dot_S3000x256_S256x128_S3000x128_1_0_0_1_n_n.contr.Idx) :
    (dot_S3000x256_S256x128_S3000x128_1_0_0_1_n_n.rhsIdx i q 1).val = (i 1).val := by
  unfold DotDims.rhsIdx
  rw [dif_neg (show ¬(1 : Fin S256x128.rank) ∈ dot_S3000x256_S256x128_S3000x128_1_0_0_1_n_n.rhsBatch by decide), dif_pos (show (1 : Fin S256x128.rank) ∈ dot_S3000x256_S256x128_S3000x128_1_0_0_1_n_n.rhsNonContracting by decide)]
  rfl

/-- The second-layer product `[3000, 256] × [256, 128]` into a zero accumulator, at `(r, j)`: `∑ k, lhs (r, k) · rhs (k, j)`. -/
theorem secondProduct_apply {φ₁ φ₂ : FTy} (lhs : FVec Ideal S3000x256 φ₁) (rhs : FVec Ideal S256x128 φ₂) (r : Fin 3000) (j : Fin 128) :
    matmul dot_S3000x256_S256x128_S3000x128_1_0_0_1_n_n none lhs rhs (constant (F := Ideal) S3000x128 .f32 0x00000000#32) (ix2 r j)
      = ∑ k : Fin 256, lhs (ix2 r k) * rhs (ix2 k j) := by
  simp only [matmul]
  rw [Ideal.matmul_constant_zero_apply, ← Equiv.sum_comp (contrEquiv1 dot_S3000x256_S256x128_S3000x128_1_0_0_1_n_n 256 rfl rfl).symm]
  refine Finset.sum_congr rfl fun k _ => ?_
  have hk := contrEquiv1_symm_val dot_S3000x256_S256x128_S3000x128_1_0_0_1_n_n 256 rfl rfl k
  have el : dot_S3000x256_S256x128_S3000x128_1_0_0_1_n_n.lhsIdx (ix2 r j) ((contrEquiv1 dot_S3000x256_S256x128_S3000x128_1_0_0_1_n_n 256 rfl rfl).symm k) = ix2 r k := funext fun a => Fin.ext (by
    match a with
    | ⟨0, _⟩ => exact lhs_second_0 _ _
    | ⟨1, _⟩ => exact (lhs_second_1 _ _).trans hk)
  have er : dot_S3000x256_S256x128_S3000x128_1_0_0_1_n_n.rhsIdx (ix2 r j) ((contrEquiv1 dot_S3000x256_S256x128_S3000x128_1_0_0_1_n_n 256 rfl rfl).symm k) = ix2 k j := funext fun a => Fin.ext (by
    match a with
    | ⟨0, _⟩ => exact (rhs_second_0 _ _).trans hk
    | ⟨1, _⟩ => exact rhs_second_1 _ _)
  rw [el, er]

/-! ## One perceptron -/

/-- The rectified first layer at `(r, k)` is hidden unit `k` of row `r`. -/
theorem hidden_apply (x : FVec Ideal S3000x128 .f32) (W1 : FVec Ideal S128x256 .f32) (b1 : FVec Ideal S256 .f32) (r : Fin 3000) (k : Fin 256) :
    maximumf (addf (matmul dot_S3000x128_S128x256_S3000x256_1_0_0_1_n_n none (truncf .bf16 x bitsLt_bf16_f32) (truncf .bf16 W1 bitsLt_bf16_f32) (constant (F := Ideal) S3000x256 .f32 0x00000000#32))
        (broadcastTo S3000x256 (shapeCast S1x256 b1 shapeCasts_S256_S1x256) broadcasts_S1x256_S3000x256))
      (broadcast S3000x256 (Scalar.ofBits (F := Ideal) .f32 0x00000000#32)) (ix2 r k)
      = hidden (fun a => x (ix2 r a)) (fun a b => W1 (ix2 a b)) (fun b => b1 (ix1 b)) k := by
  rw [maximumf_apply, addf_apply, firstProduct_apply, broadcastTo_row_apply, broadcast_apply]
  rfl

/-- The second layer without its bias at `(r, j)`. -/
theorem secondLayer_apply (x : FVec Ideal S3000x128 .f32) (W1 : FVec Ideal S128x256 .f32) (b1 : FVec Ideal S256 .f32) (W2 : FVec Ideal S256x128 .f32)
    (r : Fin 3000) (j : Fin 128) :
    matmul dot_S3000x256_S256x128_S3000x128_1_0_0_1_n_n none
        (truncf .bf16 (maximumf (addf (matmul dot_S3000x128_S128x256_S3000x256_1_0_0_1_n_n none (truncf .bf16 x bitsLt_bf16_f32) (truncf .bf16 W1 bitsLt_bf16_f32) (constant (F := Ideal) S3000x256 .f32 0x00000000#32))
          (broadcastTo S3000x256 (shapeCast S1x256 b1 shapeCasts_S256_S1x256) broadcasts_S1x256_S3000x256))
          (broadcast S3000x256 (Scalar.ofBits (F := Ideal) .f32 0x00000000#32))) bitsLt_bf16_f32)
        (truncf .bf16 W2 bitsLt_bf16_f32) (constant (F := Ideal) S3000x128 .f32 0x00000000#32) (ix2 r j)
      = secondLayer (fun a => x (ix2 r a)) (fun a b => W1 (ix2 a b)) (fun b => b1 (ix1 b)) (fun a b => W2 (ix2 a b)) j := by
  rw [secondProduct_apply]
  refine Finset.sum_congr rfl fun k _ => ?_
  rw [truncf_apply, truncf_apply, hidden_apply]

/-- The first perceptron's payload (on the node-pair sums) at `(r, j)`. -/
theorem pay2_apply (v0 : Vec Ideal S3000x128 .f32) (v3 : Vec Ideal S128x256 .f32) (v7 : Vec Ideal S256 .f32) (v13 : Vec Ideal S256x128 .f32) (v17 : Vec Ideal S128 .f32)
    (r : Fin 3000) (j : Fin 128) :
    k0_pay2 (F := Ideal) v0 v3 v7 v13 v17 (ix2 r j)
      = perceptron (fun a => v0 (ix2 r a)) (fun a b => v3 (ix2 a b)) (fun b => v7 (ix1 b)) (fun a b => v13 (ix2 a b)) (fun b => v17 (ix1 b)) j := by
  unfold k0_pay2
  rw [shapeCast_self, addf_apply, secondLayer_apply, broadcastTo_row_apply]
  rfl

/-- The second perceptron's payload (on the edge features), still without its bias, at `(r, j)`. -/
theorem pay3_apply (v2 : Vec Ideal S3000x128 .f32) (v21 : Vec Ideal S128x256 .f32) (v25 : Vec Ideal S256 .f32) (v31 : Vec Ideal S256x128 .f32)
    (r : Fin 3000) (j : Fin 128) :
    k0_pay3 (F := Ideal) v2 v21 v25 v31 (ix2 r j)
      = secondLayer (fun a => v2 (ix2 r a)) (fun a b => v21 (ix2 a b)) (fun b => v25 (ix1 b)) (fun a b => v31 (ix2 a b)) j := by
  unfold k0_pay3
  rw [secondLayer_apply]

/-! ## The normalisation of a block, row by row -/

/-- The column of row means: each row's lane sum over 128. -/
def meanCol (h : FVec Ideal S3000x128 .f32) : FVec Ideal S3000x1 .f32 :=
  divf (shapeCast S3000x1 (multiReduction .add [1] S3000 h 0x00000000#32 reduces_S3000x128_S3000 (.inl rfl) rfl) shapeCasts_S3000_S3000x1)
    (broadcast S3000x1 (Scalar.ofBits (F := Ideal) .f32 0x43000000#32))

theorem meanCol_apply (h : FVec Ideal S3000x128 .f32) (r : Fin 3000) :
    meanCol h (ix2 r (0 : Fin 1)) = rowMean (fun a => h (ix2 r a)) := by
  unfold meanCol
  rw [divf_apply, shapeCast_a_a1_apply, rowSum_apply, broadcast_apply]
  rfl

/-- The block minus its rows' means. -/
def centred (h : FVec Ideal S3000x128 .f32) : FVec Ideal S3000x128 .f32 :=
  subf h (broadcastTo S3000x128 (meanCol h) broadcasts_S3000x1_S3000x128)

theorem centred_apply (h : FVec Ideal S3000x128 .f32) (r : Fin 3000) (j : Fin 128) :
    centred h (ix2 r j) = h (ix2 r j) - rowMean (fun a => h (ix2 r a)) := by
  unfold centred
  rw [subf_apply, broadcastTo_a1_ab_apply, meanCol_apply]

/-- The column of `(variance + ε)^(-1/2)`. -/
def invStdCol (h : FVec Ideal S3000x128 .f32) : FVec Ideal S3000x1 .f32 :=
  rsqrt (addf (divf (shapeCast S3000x1 (multiReduction .add [1] S3000 (mulf (centred h) (centred h)) 0x00000000#32 reduces_S3000x128_S3000 (.inl rfl) rfl) shapeCasts_S3000_S3000x1)
      (broadcast S3000x1 (Scalar.ofBits (F := Ideal) .f32 0x43000000#32)))
    (broadcast S3000x1 (Scalar.ofBits (F := Ideal) .f32 0x3727C5AC#32)))

theorem invStdCol_apply (h : FVec Ideal S3000x128 .f32) (r : Fin 3000) :
    invStdCol h (ix2 r (0 : Fin 1)) = Ideal.rsqrt (rowVar (fun a => h (ix2 r a)) + epsLit) := by
  unfold invStdCol
  show Ideal.rsqrt (_ + _) = _
  rw [divf_apply, shapeCast_a_a1_apply, rowSum_apply, broadcast_apply, broadcast_apply]
  unfold rowVar
  congr 2
  refine congrArg (fun z => Ideal.div z _) (Finset.sum_congr rfl fun k _ => ?_)
  rw [mulf_apply, centred_apply]

/-- The normalised, rectified block. -/
def normBlock (h : FVec Ideal S3000x128 .f32) : FVec Ideal S3000x128 .f32 :=
  maximumf (mulf (centred h) (broadcastTo S3000x128 (invStdCol h) broadcasts_S3000x1_S3000x128))
    (broadcast S3000x128 (Scalar.ofBits (F := Ideal) .f32 0x00000000#32))

theorem normBlock_apply (h : FVec Ideal S3000x128 .f32) (r : Fin 3000) (j : Fin 128) :
    normBlock h (ix2 r j) = normRelu (fun a => h (ix2 r a)) j := by
  unfold normBlock
  rw [maximumf_apply, mulf_apply, centred_apply, broadcastTo_a1_ab_apply, invStdCol_apply, broadcast_apply]
  rfl

/-- The stored payload is the edge block plus the normalised sum of the two perceptrons' blocks. -/
theorem pay1_eq (v2 : Vec Ideal S3000x128 .f32) (v20 v34 : FVec Ideal S3000x128 .f32) (v36 : FVec Ideal S1x128 .f32) :
    k0_pay1 (F := Ideal) v2 v20 v34 v36
      = addf v2 (normBlock (addf v20 (addf v34 (broadcastTo S3000x128 v36 broadcasts_S1x128_S3000x128)))) := rfl

/-! ## The whole body at an entry -/

/-- Entry `(r, j)` of what the body stores: `edgeRow` of row `r` of the two input blocks. `x0` is the block of
    node-pair sums, `x1` the block of edge features, `x2 … x9` the weight arrays. -/
theorem stored_apply (x0 x1 : Vec Ideal S3000x128 .f32) (x2 : Vec Ideal S128x256 .f32) (x3 : Vec Ideal S256 .f32) (x4 : Vec Ideal S256x128 .f32) (x5 : Vec Ideal S128 .f32)
    (x6 : Vec Ideal S128x256 .f32) (x7 : Vec Ideal S256 .f32) (x8 : Vec Ideal S256x128 .f32) (x9 : Vec Ideal S128 .f32) (r : Fin 3000) (j : Fin 128) :
    k0_pay1 (F := Ideal) x1 (k0_pay2 x0 x2 x3 x4 x5) (k0_pay3 x1 x6 x7 x8) (k0_pay4 x9) (ix2 r j)
      = rowsOut 3000 x0 x1 x2 x3 x4 x5 x6 x7 x8 x9 (ix2 r j) := by
  rw [pay1_eq, addf_apply, normBlock_apply, rowsOut_ix2]
  unfold edgeRow
  congr 2
  funext a
  rw [addf_apply, addf_apply, pay2_apply, pay3_apply]
  unfold k0_pay4
  rw [broadcastTo_row_apply]
  rfl

/-- So the stored block IS `rowsOut` of the input blocks. -/
theorem stored_eq (x0 x1 : Vec Ideal S3000x128 .f32) (x2 : Vec Ideal S128x256 .f32) (x3 : Vec Ideal S256 .f32) (x4 : Vec Ideal S256x128 .f32) (x5 : Vec Ideal S128 .f32)
    (x6 : Vec Ideal S128x256 .f32) (x7 : Vec Ideal S256 .f32) (x8 : Vec Ideal S256x128 .f32) (x9 : Vec Ideal S128 .f32) :
    k0_pay1 (F := Ideal) x1 (k0_pay2 x0 x2 x3 x4 x5) (k0_pay3 x1 x6 x7 x8) (k0_pay4 x9)
      = rowsOut 3000 x0 x1 x2 x3 x4 x5 x6 x7 x8 x9 := by
  funext y
  rw [eq_ix2 y]
  exact stored_apply x0 x1 x2 x3 x4 x5 x6 x7 x8 x9 (y 0) (y 1)

end Cert.KernelIdeal.Body

end
-- ==== Proof.KernelArray.lean ====
/-
  From blocks to the array: grid point `t` of the 200 writes rows `3000 t … 3000 t + 2999` of the result, and what it
  writes there is `EdgeRow.rowsOut` of the whole arrays the region finds, restricted to those rows — because row `r` of
  point `t`'s two input blocks is row `3000 t + r` of their arrays and every weight window's one block is its whole array.
  The 200 blocks cover the result (row `e` lies in block `e / 3000`), so after the run the result array IS `rowsOut` of
  the arrays.
-/
import proofs.«125870_j81484119539777_1_alg».proof.Proof.Gen.KernelIdeal.Value
import proofs.«125870_j81484119539777_1_alg».proof.Proof.KernelBody

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx Cert.EdgeRow
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a; rfl

/-- The result array as ONE function of the arrays the region finds: the node-pair sums (computed by the host
    operations before the region), the edge features and the eight weight arrays. -/
abbrev result (c : Dev nD) : S600000x128.Idx → EReal :=
  rowsOut 600000 (V m c main_v18) (V m c main_arg1) (V m c main_arg3) (V m c main_arg4) (V m c main_arg5) (V m c main_arg6)
    (V m c main_arg7) (V m c main_arg8) (V m c main_arg9) (V m c main_arg10)

/-- The printed index maps over the 200 points: the output and the two row-blocked inputs are at block row `t`,
    column block 0; every weight window stays at block 0. -/
theorem idx_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-- Window 2 has one block, the whole of its array: every point finds the array itself. -/
theorem block2_eq (c : Dev nD) (t : Fin cfg0.N) : iblk m c 2 t = V m c main_arg3 := by
  funext y
  obtain ⟨-, -, -, -, -, -, e20, e21, e30, e40, e41, e50, e60, e61, e70, e80, e81, e90⟩ := idx_facts t
  show V m c main_arg3 (((cfg0.win 2).blk t).view.emb y) = V m c main_arg3 y
  refine congrArg (V m c main_arg3) (funext fun ax => Fin.ext ?_)
  match ax with
  | ⟨0, _⟩ => show win0_2.index t (0 : Fin 2) * 128 + 1 * (y 0).val = (y 0).val; omega
  | ⟨1, _⟩ => show win0_2.index t (1 : Fin 2) * 256 + 1 * (y 1).val = (y 1).val; omega

/-- Window 3 has one block, the whole of its array: every point finds the array itself. -/
theorem block3_eq (c : Dev nD) (t : Fin cfg0.N) : iblk m c 3 t = V m c main_arg4 := by
  funext y
  obtain ⟨-, -, -, -, -, -, e20, e21, e30, e40, e41, e50, e60, e61, e70, e80, e81, e90⟩ := idx_facts t
  show V m c main_arg4 (((cfg0.win 3).blk t).view.emb y) = V m c main_arg4 y
  refine congrArg (V m c main_arg4) (funext fun ax => Fin.ext ?_)
  match ax with
  | ⟨0, _⟩ => show win0_3.index t (0 : Fin 1) * 256 + 1 * (y 0).val = (y 0).val; omega

/-- Window 4 has one block, the whole of its array: every point finds the array itself. -/
theorem block4_eq (c : Dev nD) (t : Fin cfg0.N) : iblk m c 4 t = V m c main_arg5 := by
  funext y
  obtain ⟨-, -, -, -, -, -, e20, e21, e30, e40, e41, e50, e60, e61, e70, e80, e81, e90⟩ := idx_facts t
  show V m c main_arg5 (((cfg0.win 4).blk t).view.emb y) = V m c main_arg5 y
  refine congrArg (V m c main_arg5) (funext fun ax => Fin.ext ?_)
  match ax with
  | ⟨0, _⟩ => show win0_4.index t (0 : Fin 2) * 256 + 1 * (y 0).val = (y 0).val; omega
  | ⟨1, _⟩ => show win0_4.index t (1 : Fin 2) * 128 + 1 * (y 1).val = (y 1).val; omega

/-- Window 5 has one block, the whole of its array: every point finds the array itself. -/
theorem block5_eq (c : Dev nD) (t : Fin cfg0.N) : iblk m c 5 t = V m c main_arg6 := by
  funext y
  obtain ⟨-, -, -, -, -, -, e20, e21, e30, e40, e41, e50, e60, e61, e70, e80, e81, e90⟩ := idx_facts t
  show V m c main_arg6 (((cfg0.win 5).blk t).view.emb y) = V m c main_arg6 y
  refine congrArg (V m c main_arg6) (funext fun ax => Fin.ext ?_)
  match ax with
  | ⟨0, _⟩ => show win0_5.index t (0 : Fin 1) * 128 + 1 * (y 0).val = (y 0).val; omega

/-- Window 6 has one block, the whole of its array: every point finds the array itself. -/
theorem block6_eq (c : Dev nD) (t : Fin cfg0.N) : iblk m c 6 t = V m c main_arg7 := by
  funext y
  obtain ⟨-, -, -, -, -, -, e20, e21, e30, e40, e41, e50, e60, e61, e70, e80, e81, e90⟩ := idx_facts t
  show V m c main_arg7 (((cfg0.win 6).blk t).view.emb y) = V m c main_arg7 y
  refine congrArg (V m c main_arg7) (funext fun ax => Fin.ext ?_)
  match ax with
  | ⟨0, _⟩ => show win0_6.index t (0 : Fin 2) * 128 + 1 * (y 0).val = (y 0).val; omega
  | ⟨1, _⟩ => show win0_6.index t (1 : Fin 2) * 256 + 1 * (y 1).val = (y 1).val; omega

/-- Window 7 has one block, the whole of its array: every point finds the array itself. -/
theorem block7_eq (c : Dev nD) (t : Fin cfg0.N) : iblk m c 7 t = V m c main_arg8 := by
  funext y
  obtain ⟨-, -, -, -, -, -, e20, e21, e30, e40, e41, e50, e60, e61, e70, e80, e81, e90⟩ := idx_facts t
  show V m c main_arg8 (((cfg0.win 7).blk t).view.emb y) = V m c main_arg8 y
  refine congrArg (V m c main_arg8) (funext fun ax => Fin.ext ?_)
  match ax with
  | ⟨0, _⟩ => show win0_7.index t (0 : Fin 1) * 256 + 1 * (y 0).val = (y 0).val; omega

/-- Window 8 has one block, the whole of its array: every point finds the array itself. -/
theorem block8_eq (c : Dev nD) (t : Fin cfg0.N) : iblk m c 8 t = V m c main_arg9 := by
  funext y
  obtain ⟨-, -, -, -, -, -, e20, e21, e30, e40, e41, e50, e60, e61, e70, e80, e81, e90⟩ := idx_facts t
  show V m c main_arg9 (((cfg0.win 8).blk t).view.emb y) = V m c main_arg9 y
  refine congrArg (V m c main_arg9) (funext fun ax => Fin.ext ?_)
  match ax with
  | ⟨0, _⟩ => show win0_8.index t (0 : Fin 2) * 256 + 1 * (y 0).val = (y 0).val; omega
  | ⟨1, _⟩ => show win0_8.index t (1 : Fin 2) * 128 + 1 * (y 1).val = (y 1).val; omega

/-- Window 9 has one block, the whole of its array: every point finds the array itself. -/
theorem block9_eq (c : Dev nD) (t : Fin cfg0.N) : iblk m c 9 t = V m c main_arg10 := by
  funext y
  obtain ⟨-, -, -, -, -, -, e20, e21, e30, e40, e41, e50, e60, e61, e70, e80, e81, e90⟩ := idx_facts t
  show V m c main_arg10 (((cfg0.win 9).blk t).view.emb y) = V m c main_arg10 y
  refine congrArg (V m c main_arg10) (funext fun ax => Fin.ext ?_)
  match ax with
  | ⟨0, _⟩ => show win0_9.index t (0 : Fin 1) * 128 + 1 * (y 0).val = (y 0).val; omega

/-- WHAT POINT `t` WRITES BACK is block `t` of `result`. -/
theorem flushed_eq (c : Dev nD) (t : Fin cfg0.N) :
    (dats m 0 c).flushed 10 t = ((cfg0.win 10).blk t).view.read (Elt Ideal) (result m c) := by
  rw [Value.flushed10]
  unfold out0_10
  rw [View.canon_unit_zero origin2]
  simp only [View.ld_unit_zero (S := S3000x128) origin2, View.ld_unit_zero (S := S128x256) origin2, View.ld_unit_zero (S := S256x128) origin2,
    View.ld_unit_zero (S := S256) origin1, View.ld_unit_zero (S := S128) origin1]
  rw [Body.stored_eq, block2_eq, block3_eq, block4_eq, block5_eq, block6_eq, block7_eq, block8_eq, block9_eq]
  funext y
  obtain ⟨eo0, eo1, es0, es1, ef0, ef1, -⟩ := idx_facts t
  -- row `y 0` of the two input blocks is row `3000 t + y 0` of their arrays
  have hs : (fun a : Fin 128 => iblk m c 0 t (ix2 (n0 := 3000) (n1 := 128) (y 0) a))
      = fun a : Fin 128 => V m c main_v18 (ix2 (n0 := 600000) (n1 := 128) ((((cfg0.win 10).blk t).view.emb y) 0) a) := by
    funext a
    show V m c main_v18 (((cfg0.win 0).blk t).view.emb (ix2 (n0 := 3000) (n1 := 128) (y 0) a)) = _
    refine congrArg (V m c main_v18) (funext fun ax => Fin.ext ?_)
    match ax with
    | ⟨0, _⟩ => show win0_0.index t (0 : Fin 2) * 3000 + 1 * (y 0).val = win0_10.index t (0 : Fin 2) * 3000 + 1 * (y 0).val; omega
    | ⟨1, _⟩ => show win0_0.index t (1 : Fin 2) * 128 + 1 * a.val = a.val; omega
  have hf : (fun a : Fin 128 => iblk m c 1 t (ix2 (n0 := 3000) (n1 := 128) (y 0) a))
      = fun a : Fin 128 => V m c main_arg1 (ix2 (n0 := 600000) (n1 := 128) ((((cfg0.win 10).blk t).view.emb y) 0) a) := by
    funext a
    show V m c main_arg1 (((cfg0.win 1).blk t).view.emb (ix2 (n0 := 3000) (n1 := 128) (y 0) a)) = _
    refine congrArg (V m c main_arg1) (funext fun ax => Fin.ext ?_)
    match ax with
    | ⟨0, _⟩ => show win0_1.index t (0 : Fin 2) * 3000 + 1 * (y 0).val = win0_10.index t (0 : Fin 2) * 3000 + 1 * (y 0).val; omega
    | ⟨1, _⟩ => show win0_1.index t (1 : Fin 2) * 128 + 1 * a.val = a.val; omega
  have hj : ((y 1 : Fin 128)) = ((((cfg0.win 10).blk t).view.emb y) 1 : Fin 128) :=
    Fin.ext (by show (y 1).val = win0_10.index t (1 : Fin 2) * 128 + 1 * (y 1).val; omega)
  show edgeRow (fun a : Fin 128 => iblk m c 0 t (ix2 (n0 := 3000) (n1 := 128) (y 0) a)) (fun a : Fin 128 => iblk m c 1 t (ix2 (n0 := 3000) (n1 := 128) (y 0) a))
      (fun a b => V m c main_arg3 (ix2 a b)) (fun b => V m c main_arg4 (ix1 b)) (fun a b => V m c main_arg5 (ix2 a b)) (fun b => V m c main_arg6 (ix1 b))
      (fun a b => V m c main_arg7 (ix2 a b)) (fun b => V m c main_arg8 (ix1 b)) (fun a b => V m c main_arg9 (ix2 a b)) (fun b => V m c main_arg10 (ix1 b)) (y 1)
    = edgeRow (fun a : Fin 128 => V m c main_v18 (ix2 (n0 := 600000) (n1 := 128) ((((cfg0.win 10).blk t).view.emb y) 0) a))
      (fun a : Fin 128 => V m c main_arg1 (ix2 (n0 := 600000) (n1 := 128) ((((cfg0.win 10).blk t).view.emb y) 0) a))
      (fun a b => V m c main_arg3 (ix2 a b)) (fun b => V m c main_arg4 (ix1 b)) (fun a b => V m c main_arg5 (ix2 a b)) (fun b => V m c main_arg6 (ix1 b))
      (fun a b => V m c main_arg7 (ix2 a b)) (fun b => V m c main_arg8 (ix1 b)) (fun a b => V m c main_arg9 (ix2 a b)) (fun b => V m c main_arg10 (ix1 b))
      ((((cfg0.win 10).blk t).view.emb y) 1)
  rw [hs, hf]
  exact congrArg _ hj

/-- An index of the result is in point `t`'s block iff each coordinate is in the block's range on its axis. -/
theorem mem_blk (t : Fin cfg0.N) (i : S600000x128.Idx) :
    i ∈ ((cfg0.win 10).blk t).view.set ↔ ∀ a : Fin 2, win0_10.index t a * S3000x128.size a ≤ (i a).val ∧ (i a).val < win0_10.index t a * S3000x128.size a + S3000x128.size a := by
  show i ∈ ((View.whole main_v19).slice (win0_10.rect t)).set ↔ _
  rw [View.set_slice_whole, Rect.mem_set_unit]
  exact Iff.rfl

/-- Every index of the result lies in some point's block: row `e` in block `e / 3000`. -/
theorem cover (i : S600000x128.Idx) : ∃ t : Fin cfg0.N, (cfg0.win 10).flush t = true ∧ i ∈ ((cfg0.win 10).blk t).view.set := by
  have hi0 : (i 0).val < 600000 := (i 0).isLt
  have hi1 : (i 1).val < 128 := (i 1).isLt
  have ht : (i 0).val / 3000 < cfg0.N := by rw [show cfg0.N = 200 from N_0]; omega
  refine ⟨⟨(i 0).val / 3000, ht⟩, flush0_10 _, ?_⟩
  obtain ⟨eo0, eo1, -⟩ := idx_facts ⟨(i 0).val / 3000, ht⟩
  rw [mem_blk]
  intro a
  match a with
  | ⟨0, _⟩ => show win0_10.index ⟨(i 0).val / 3000, ht⟩ (0 : Fin 2) * 3000 ≤ (i 0).val ∧ (i 0).val < win0_10.index ⟨(i 0).val / 3000, ht⟩ (0 : Fin 2) * 3000 + 3000; rw [eo0]; show (i 0).val / 3000 * 3000 ≤ (i 0).val ∧ (i 0).val < (i 0).val / 3000 * 3000 + 3000; omega
  | ⟨1, _⟩ => show win0_10.index ⟨(i 0).val / 3000, ht⟩ (1 : Fin 2) * 128 ≤ (i 1).val ∧ (i 1).val < win0_10.index ⟨(i 0).val / 3000, ht⟩ (1 : Fin 2) * 128 + 128; rw [eo1]; omega

/-- THE RESULT ARRAY after the run is `result`. -/
theorem final (c : Dev nD) : (dats m 0 c).arrAt 10 cfg0.N = result m c :=
  (dats m 0 c).arrAt_eq_of_cover 10 (result m c) (fun t _ => flushed_eq m c t) cover

/-- The kernel's run with the result array named: `rowsOut` of the arrays the region finds; the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Blocks

end
-- ==== Proof.ReferenceRows.lean ====
/-
  The reference, read row by row at the ideal values: entry `(e, j)` of its result is `EdgeRow.edgeRow` of row `e` of
  the node-pair sums (its own host operations' gather-and-add, kept whole) and of the edge features, with the weight
  arrays. Each stage is read at an entry by the generated read lemmas; a `dot_general` is the sum over the contracted
  axis, a `reduce` with `add` from the zero word is the row's sum, the broadcasts of biases, means and literals are
  their one entry.
-/
import proofs.«125870_j81484119539777_1_alg».proof.Proof.Gen.ReferenceIdeal.Read
import proofs.«125870_j81484119539777_1_alg».proof.Proof.EdgeRow

noncomputable section

namespace Cert.ReferenceIdeal.Rows

open Cert.ReferenceIdeal Cert.ReferenceIdeal.Gen Cert.ReferenceIdeal.Read Idealize.ShloMosaic Idealize.ShloMosaic.ValueIdx Cert.EdgeRow

variable (x0 : (⟨S50000x128, .f32⟩ : BufTy).Contents (Elt Ideal)) (x1 : (⟨S600000x128, .f32⟩ : BufTy).Contents (Elt Ideal))
  (x2 : (⟨S2x600000, .i32⟩ : BufTy).Contents (Elt Ideal)) (x3 : (⟨S128x256, .f32⟩ : BufTy).Contents (Elt Ideal))
  (x4 : (⟨S256, .f32⟩ : BufTy).Contents (Elt Ideal)) (x5 : (⟨S256x128, .f32⟩ : BufTy).Contents (Elt Ideal))
  (x6 : (⟨S128, .f32⟩ : BufTy).Contents (Elt Ideal)) (x7 : (⟨S128x256, .f32⟩ : BufTy).Contents (Elt Ideal))
  (x8 : (⟨S256, .f32⟩ : BufTy).Contents (Elt Ideal)) (x9 : (⟨S256x128, .f32⟩ : BufTy).Contents (Elt Ideal))
  (x10 : (⟨S128, .f32⟩ : BufTy).Contents (Elt Ideal))

/-- The node-pair sums, as the reference's host operations compute them: row `e` is the sum of the two gathered node rows. -/
abbrev pairSums : S600000x128.Idx → EReal := val_main_v18 (F := Ideal) x0 x2

/-! ## The perceptron on the node-pair sums -/

theorem hiddenA_apply (e : Fin 600000) (k : Fin 256) :
    val_main_v24 (F := Ideal) x0 x2 x3 x4 (ix2 e k)
      = hidden (fun a => pairSums x0 x2 (ix2 e a)) (fun a b => x3 (ix2 a b)) (fun b => x4 (ix1 b)) k := by
  rw [val_main_v24_apply, val_main_v22_apply, val_main_v19_apply, val_main_v21_apply, val_main_v20_apply, val_main_v23_apply, val_main_cst_apply]
  have el : ∀ i : Fin 128, lidx_main_v19 (ix2 e k) i = ix2 e i := fun i => funext fun ax => Fin.ext (by match ax with | ⟨0, _⟩ => rfl | ⟨1, _⟩ => rfl)
  have er : ∀ i : Fin 128, ridx_main_v19 (ix2 e k) i = ix2 i k := fun i => funext fun ax => Fin.ext (by match ax with | ⟨0, _⟩ => rfl | ⟨1, _⟩ => rfl)
  have eb : idx_main_v20 (idx_main_v21 (ix2 e k)) = ix1 k := funext fun ax => Fin.ext (by match ax with | ⟨0, _⟩ => rfl)
  simp only [el, er, eb]
  rfl

theorem perceptronA_apply (e : Fin 600000) (j : Fin 128) :
    val_main_v28 (F := Ideal) x0 x2 x3 x4 x5 x6 (ix2 e j)
      = perceptron (fun a => pairSums x0 x2 (ix2 e a)) (fun a b => x3 (ix2 a b)) (fun b => x4 (ix1 b)) (fun a b => x5 (ix2 a b)) (fun b => x6 (ix1 b)) j := by
  rw [val_main_v28_apply, val_main_v25_apply, val_main_v27_apply, val_main_v26_apply]
  have el : ∀ k : Fin 256, lidx_main_v25 (ix2 e j) k = ix2 e k := fun k => funext fun ax => Fin.ext (by match ax with | ⟨0, _⟩ => rfl | ⟨1, _⟩ => rfl)
  have er : ∀ k : Fin 256, ridx_main_v25 (ix2 e j) k = ix2 k j := fun k => funext fun ax => Fin.ext (by match ax with | ⟨0, _⟩ => rfl | ⟨1, _⟩ => rfl)
  have eb : idx_main_v26 (idx_main_v27 (ix2 e j)) = ix1 j := funext fun ax => Fin.ext (by match ax with | ⟨0, _⟩ => rfl)
  simp only [el, er, eb, hiddenA_apply]
  rfl

/-! ## The perceptron on the edge features -/

theorem hiddenB_apply (e : Fin 600000) (k : Fin 256) :
    val_main_v34 (F := Ideal) x1 x7 x8 (ix2 e k)
      = hidden (fun a => x1 (ix2 e a)) (fun a b => x7 (ix2 a b)) (fun b => x8 (ix1 b)) k := by
  rw [val_main_v34_apply, val_main_v32_apply, val_main_v29_apply, val_main_v31_apply, val_main_v30_apply, val_main_v33_apply, val_main_cst_3_apply]
  have el : ∀ i : Fin 128, lidx_main_v29 (ix2 e k) i = ix2 e i := fun i => funext fun ax => Fin.ext (by match ax with | ⟨0, _⟩ => rfl | ⟨1, _⟩ => rfl)
  have er : ∀ i : Fin 128, ridx_main_v29 (ix2 e k) i = ix2 i k := fun i => funext fun ax => Fin.ext (by match ax with | ⟨0, _⟩ => rfl | ⟨1, _⟩ => rfl)
  have eb : idx_main_v30 (idx_main_v31 (ix2 e k)) = ix1 k := funext fun ax => Fin.ext (by match ax with | ⟨0, _⟩ => rfl)
  simp only [el, er, eb]
  rfl

theorem perceptronB_apply (e : Fin 600000) (j : Fin 128) :
    val_main_v38 (F := Ideal) x1 x7 x8 x9 x10 (ix2 e j)
      = perceptron (fun a => x1 (ix2 e a)) (fun a b => x7 (ix2 a b)) (fun b => x8 (ix1 b)) (fun a b => x9 (ix2 a b)) (fun b => x10 (ix1 b)) j := by
  rw [val_main_v38_apply, val_main_v35_apply, val_main_v37_apply, val_main_v36_apply]
  have el : ∀ k : Fin 256, lidx_main_v35 (ix2 e j) k = ix2 e k := fun k => funext fun ax => Fin.ext (by match ax with | ⟨0, _⟩ => rfl | ⟨1, _⟩ => rfl)
  have er : ∀ k : Fin 256, ridx_main_v35 (ix2 e j) k = ix2 k j := fun k => funext fun ax => Fin.ext (by match ax with | ⟨0, _⟩ => rfl | ⟨1, _⟩ => rfl)
  have eb : idx_main_v36 (idx_main_v37 (ix2 e j)) = ix1 j := funext fun ax => Fin.ext (by match ax with | ⟨0, _⟩ => rfl)
  simp only [el, er, eb, hiddenB_apply]
  rfl

/-! ## The sum of the two, and its normalisation -/

/-- Row `e` of the two perceptrons' sum. -/
abbrev mixedRow (e : Fin 600000) : Fin 128 → EReal :=
  mixed (fun a => pairSums x0 x2 (ix2 e a)) (fun a => x1 (ix2 e a))
    (fun a b => x3 (ix2 a b)) (fun b => x4 (ix1 b)) (fun a b => x5 (ix2 a b)) (fun b => x6 (ix1 b))
    (fun a b => x7 (ix2 a b)) (fun b => x8 (ix1 b)) (fun a b => x9 (ix2 a b)) (fun b => x10 (ix1 b))

theorem mixed_apply (e : Fin 600000) (a : Fin 128) :
    val_main_v39 (F := Ideal) x0 x1 x2 x3 x4 x5 x6 x7 x8 x9 x10 (ix2 e a) = mixedRow x0 x1 x2 x3 x4 x5 x6 x7 x8 x9 x10 e a := by
  rw [val_main_v39_apply, perceptronA_apply, perceptronB_apply]
  rfl

/-- The column of row means at `(e, 0)`. -/
theorem mean_apply (e : Fin 600000) (u : Fin 1) :
    val_main_v43 (F := Ideal) x0 x1 x2 x3 x4 x5 x6 x7 x8 x9 x10 (ix2 e u) = rowMean (mixedRow x0 x1 x2 x3 x4 x5 x6 x7 x8 x9 x10 e) := by
  rw [val_main_v43_apply, val_main_v41_apply, val_main_v40_apply, val_main_v42_apply, val_main_cst_5_apply, val_main_cst_4_apply]
  have ei : ∀ k : Fin 128, idx_main_v40 (idx_main_v41 (ix2 e u)) k = ix2 e k := fun k => funext fun ax => Fin.ext (by match ax with | ⟨0, _⟩ => rfl | ⟨1, _⟩ => rfl)
  simp only [ei, mixed_apply]
  show Ideal.div (Ideal.ofBits .f32 0x00000000#32 + _) _ = _
  rw [Ideal.ofBits_zero_f32, zero_add]
  rfl

/-- The column of `(variance + ε)^(-1/2)` at `(e, 0)`. -/
theorem invStd_apply (e : Fin 600000) (u : Fin 1) :
    val_main_v55 (F := Ideal) x0 x1 x2 x3 x4 x5 x6 x7 x8 x9 x10 (ix2 e u) = Ideal.rsqrt (rowVar (mixedRow x0 x1 x2 x3 x4 x5 x6 x7 x8 x9 x10 e) + epsLit) := by
  rw [val_main_v55_apply, val_main_v54_apply, val_main_v50_apply, val_main_v48_apply, val_main_v47_apply, val_main_v49_apply, val_main_cst_7_apply,
    val_main_v53_apply, val_main_cst_8_apply, val_main_cst_6_apply]
  have ei : ∀ k : Fin 128, idx_main_v47 (idx_main_v48 (ix2 e u)) k = ix2 e k := fun k => funext fun ax => Fin.ext (by match ax with | ⟨0, _⟩ => rfl | ⟨1, _⟩ => rfl)
  have ec : ∀ k : Fin 128, idx_main_v44 (ix2 (n0 := 600000) (n1 := 128) e k) = ix2 e (0 : Fin 1) := fun k => funext fun ax => Fin.ext (by match ax with | ⟨0, _⟩ => rfl | ⟨1, _⟩ => rfl)
  simp only [ei, val_main_v46_apply, val_main_v45_apply, val_main_v44_apply, ec, mean_apply, mixed_apply]
  show Ideal.rsqrt (Ideal.div (Ideal.ofBits .f32 0x00000000#32 + _) _ + _) = _
  rw [Ideal.ofBits_zero_f32, zero_add]
  rfl

/-- ENTRY `(e, j)` OF THE REFERENCE'S RESULT is `edgeRow` of row `e`. -/
theorem result_apply (e : Fin 600000) (j : Fin 128) :
    val_main_v60 (F := Ideal) x0 x1 x2 x3 x4 x5 x6 x7 x8 x9 x10 (ix2 e j)
      = rowsOut 600000 (pairSums x0 x2) x1 x3 x4 x5 x6 x7 x8 x9 x10 (ix2 e j) := by
  rw [val_main_v60_apply, val_main_v59_apply, val_main_v57_apply, val_main_v52_apply, val_main_v51_apply, val_main_v56_apply, val_main_v58_apply, val_main_cst_9_apply]
  have ec : idx_main_v51 (ix2 (n0 := 600000) (n1 := 128) e j) = ix2 e (0 : Fin 1) := funext fun ax => Fin.ext (by match ax with | ⟨0, _⟩ => rfl | ⟨1, _⟩ => rfl)
  have ed : idx_main_v56 (ix2 (n0 := 600000) (n1 := 128) e j) = ix2 e (0 : Fin 1) := funext fun ax => Fin.ext (by match ax with | ⟨0, _⟩ => rfl | ⟨1, _⟩ => rfl)
  rw [ec, ed, mean_apply, invStd_apply, mixed_apply, rowsOut_ix2]
  rfl

/-- So the reference's result IS `rowsOut` of its node-pair sums, the edge features and the weights. -/
theorem result_eq :
    val_main_v60 (F := Ideal) x0 x1 x2 x3 x4 x5 x6 x7 x8 x9 x10 = rowsOut 600000 (pairSums x0 x2) x1 x3 x4 x5 x6 x7 x8 x9 x10 := by
  funext i
  rw [eq_ix2 i]
  exact result_apply x0 x1 x2 x3 x4 x5 x6 x7 x8 x9 x10 (i 0) (i 1)

end Cert.ReferenceIdeal.Rows

end
-- ==== Proof.lean ====
/-
  The certificate of the edge-update kernel against its reference.

  Both programs begin with the same host operations: the two rows of `edge_index` (a negative index shifted by the
  number of nodes) gather two rows of `node_features` per edge, and the gathered rows are added — the node-pair sums
  `s`. The reference then applies, to whole `[600000, ·]` arrays, two two-layer perceptrons (one on `s`, one on the edge
  features), adds them, normalises each row over its 128 entries, rectifies and adds the edge features back. The kernel
  does the same for 3000 rows at a time on a grid of 200 points, its products taken in a narrower float format into
  zero accumulators.

  At the ideal values the change of format is the identity, a product into a zero accumulator is the host's
  `dot_general`, and a lane sum is the host's `reduce`: both programs compute, at entry `(e, j)`,
  `EdgeRow.edgeRow` of row `e` of `s` and of the edge features (Proof/EdgeRow.lean). No algebraic law beyond `0 + x = x`
  is used, so the precondition is never opened.

  Proof/KernelBody.lean reads the kernel's stored block at an entry; Proof/KernelArray.lean assembles the 200 blocks
  into the result array; Proof/ReferenceRows.lean reads the reference's result at an entry. Here the two host prefixes
  are identified and the claims assembled.
-/
import proofs.«125870_j81484119539777_1_alg».proof.Defs
import proofs.«125870_j81484119539777_1_alg».proof.Proof.Gen.Kernel
import proofs.«125870_j81484119539777_1_alg».proof.Proof.Gen.Kernel.Skeleton
import proofs.«125870_j81484119539777_1_alg».proof.Proof.Gen.Kernel.Launch
import proofs.«125870_j81484119539777_1_alg».proof.Proof.Gen.Kernel.Points
import proofs.«125870_j81484119539777_1_alg».proof.Proof.Gen.Kernel.Frame
import proofs.«125870_j81484119539777_1_alg».proof.Proof.Gen.KernelIdeal
import proofs.«125870_j81484119539777_1_alg».proof.Proof.Gen.KernelIdeal.Skeleton
import proofs.«125870_j81484119539777_1_alg».proof.Proof.Gen.KernelIdeal.Launch
import proofs.«125870_j81484119539777_1_alg».proof.Proof.Gen.KernelIdeal.Points
import proofs.«125870_j81484119539777_1_alg».proof.Proof.Gen.KernelIdeal.Frame
import proofs.«125870_j81484119539777_1_alg».proof.Proof.Gen.ReferenceIdeal
import proofs.«125870_j81484119539777_1_alg».proof.Proof.Gen.Pre_finite_inputs
import proofs.«125870_j81484119539777_1_alg».proof.Proof.Gen.KernelIdeal.Value
import proofs.«125870_j81484119539777_1_alg».proof.Proof.Gen.ReferenceIdeal.Run
import proofs.«125870_j81484119539777_1_alg».proof.Proof.Gen.ReferenceIdeal.Read
import proofs.«125870_j81484119539777_1_alg».proof.Proof.KernelArray
import proofs.«125870_j81484119539777_1_alg».proof.Proof.ReferenceRows
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo Cert.EdgeRow

/-- The two programs' gather records are one record: the same dimension numbers. -/
theorem gather_agree : Cert.KernelIdeal.gather_S50000x128_S600000x1_S600000x128_1_0_n_n_0_1_1128
    = Cert.ReferenceIdeal.gather_S50000x128_S600000x1_S600000x128_1_0_n_n_0_1_1128 := rfl

set_option maxHeartbeats 2000000 in
open Cert.ReferenceIdeal.Read in
/-- The node-pair sums the kernel's region finds are the reference's: the host operations before the region are, one by
    one, the reference's first host operations, applied to the same arguments. -/
theorem sums_agree (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v18 : Cert.KernelIdeal.S600000x128.Idx → EReal)
      = Cert.ReferenceIdeal.Rows.pairSums (m ((c : Thread Cert.KernelIdeal.nD Cert.KernelIdeal.τ).loc Cert.KernelIdeal.main_arg0))
          (m ((c : Thread Cert.KernelIdeal.nD Cert.KernelIdeal.τ).loc Cert.KernelIdeal.main_arg2)) := by
  dsimp only [Cert.KernelIdeal.Gen.V, Cert.KernelIdeal.Gen.hostOps0]
  after_results_simp
  unfold Cert.ReferenceIdeal.Rows.pairSums val_main_v18 val_main_v17 val_main_v10 val_main_v16 val_main_v9 val_main_v15 val_main_v8 val_main_v14 val_main_v7
    val_main_v13 val_main_v6 val_main_v12 val_main_v5 val_main_v11 val_main_v4 val_main_v3 val_main_v1 val_main_v2 val_main_v0 val_main_c val_main_c_0 val_main_c_1 val_main_c_2
  rw [gather_agree]
  rfl

/-- The kernel's result array as a function of its ARGUMENTS: `rowsOut` of the node-pair sums of `node_features` and
    `edge_index`, the edge features and the weights. -/
theorem result_of_arguments (m : (ℓ : Loc Cert.KernelIdeal.nD Cert.KernelIdeal.τ Cert.KernelIdeal.sig) → Buf (Elt Ideal) ℓ) (c : Dev Cert.KernelIdeal.nD) :
    Cert.KernelIdeal.Blocks.result m c
      = rowsOut 600000
          (Cert.ReferenceIdeal.Rows.pairSums (m ((c : Thread Cert.KernelIdeal.nD Cert.KernelIdeal.τ).loc Cert.KernelIdeal.main_arg0))
            (m ((c : Thread Cert.KernelIdeal.nD Cert.KernelIdeal.τ).loc Cert.KernelIdeal.main_arg2)))
          (m ((c : Thread Cert.KernelIdeal.nD Cert.KernelIdeal.τ).loc Cert.KernelIdeal.main_arg1))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8))
          (m ((c : Thread Cert.KernelIdeal.nD Cert.KernelIdeal.τ).loc Cert.KernelIdeal.main_arg9))
          (m ((c : Thread Cert.KernelIdeal.nD Cert.KernelIdeal.τ).loc Cert.KernelIdeal.main_arg10)) := by
  unfold Cert.KernelIdeal.Blocks.result
  rw [sums_agree m c, Cert.KernelIdeal.Gen.V_main_arg1, Cert.KernelIdeal.Gen.V_main_arg3, Cert.KernelIdeal.Gen.V_main_arg4,
    Cert.KernelIdeal.Gen.V_main_arg5, Cert.KernelIdeal.Gen.V_main_arg6, Cert.KernelIdeal.Gen.V_main_arg7, Cert.KernelIdeal.Gen.V_main_arg8,
    Cert.KernelIdeal.Gen.V_main_arg9, Cert.KernelIdeal.Gen.V_main_arg10]

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with `rowsOut` of the same node-pair sums, edge features
    and weights. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v60_eq, Cert.ReferenceIdeal.Rows.result_eq, h0, h1, h2, h3, h4, h5, h6, h7, h8, h9, h10]
  exact (result_of_arguments m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
